-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x256 : Shape := ⟨2, ![1024, 256]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16x2048x1024 .f32) (main_arg1 : FVec F S16x2048x1024 .f32) (main_arg2 : FVec F S1024x256 .f32) (main_arg3 : FVec F S1024x256 .f32) (main_arg4 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S16x2048x1024 : Shape := ⟨3, ![16, 2048, 1024]⟩
abbrev S1024x256 : Shape := ⟨2, ![1024, 256]⟩
abbrev S1024x1024 : Shape := ⟨2, ![1024, 1024]⟩
abbrev S16x2048x256 : Shape := ⟨3, ![16, 2048, 256]⟩
abbrev S1x1024x1024 : Shape := ⟨3, ![1, 1024, 1024]⟩
abbrev S1x1024x256 : Shape := ⟨3, ![1, 1024, 256]⟩
abbrev S1x512x1024 : Shape := ⟨3, ![1, 512, 1024]⟩
abbrev S1x2048x256 : Shape := ⟨3, ![1, 2048, 256]⟩
abbrev S1x2048x1024 : Shape := ⟨3, ![1, 2048, 1024]⟩
abbrev S512x1024 : Shape := ⟨2, ![512, 1024]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩

abbrev nBuf : Space → Nat
  | .hbm => 11
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x256, .f32⟩
  | .hbm, ⟨3, _⟩ => ⟨S1024x256, .f32⟩
  | .hbm, ⟨4, _⟩ => ⟨S1024x1024, .f32⟩
  | .hbm, ⟨5, _⟩ => ⟨S1024x256, .bf16⟩
  | .hbm, ⟨6, _⟩ => ⟨S1024x256, .bf16⟩
  | .hbm, ⟨7, _⟩ => ⟨S1024x1024, .bf16⟩
  | .hbm, ⟨8, _⟩ => ⟨S16x2048x256, .bf16⟩
  | .hbm, ⟨9, _⟩ => ⟨S16x2048x1024, .bf16⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .bf16⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1024x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x512x1024, .f32⟩
  | .local _ .vmem, ⟨16, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S512x2048_S512 : S512x2048.Reduces [1] S512
  shapeCasts_S512_S512x1 : S512.ShapeCasts S512x1
  broadcasts_S512x1_S512x2048 : S512x1.Broadcasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  broadcasts_S512x1_S512x1024 : S512x1.Broadcasts S512x1024
  shapeCasts_S512x1024_S1x512x1024 : S512x1024.ShapeCasts S1x512x1024
  dot_S1024x1024_S1024x256_S1024x256_1_0_0_1_n_n_wf : DotDims.WF S1024x1024 S1024x256 S1024x256 [1] [0] [0] [1] [] []
  dot_S1024x1024_S1024x1024_S1024x1024_1_0_0_1_n_n_wf : DotDims.WF S1024x1024 S1024x1024 S1024x1024 [1] [0] [0] [1] [] []
  dot_S512x1024_S1024x256_S512x256_1_0_0_1_n_n_wf : DotDims.WF S512x1024 S1024x256 S512x256 [1] [0] [0] [1] [] []
  dot_S512x256_S2048x256_S512x2048_1_1_0_0_n_n_wf : DotDims.WF S512x256 S2048x256 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x2048x256.size a
  hwx0_3 : ∀ i : grid0.Coords, EltTy.bits .bf16 = 32 ∨ (Rect.block (s := S16x2048x256) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x1024.size a
  hwx0_4 : ∀ i : grid0.Coords, EltTy.bits .bf16 = 32 ∨ (Rect.block (s := S16x2048x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .f32 = 32 ∨ (Rect.block (s := S16x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S16x2048x256.size a
  hwx1_2 : ∀ i : grid1.Coords, EltTy.bits .bf16 = 32 ∨ (Rect.block (s := S16x2048x256) S1x2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S16x2048x1024.size a
  hwx1_3 : ∀ i : grid1.Coords, EltTy.bits .bf16 = 32 ∨ (Rect.block (s := S16x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S16x2048x1024.size a
  hwx1_4 : ∀ i : grid1.Coords, EltTy.bits .f32 = 32 ∨ (Rect.block (s := S16x2048x1024) S1x512x1024.size (cc1_transform_4 i) (hinb1_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x256 : Shape := ⟨2, ![1024, 256]⟩
abbrev S1024x1024 : Shape := ⟨2, ![1024, 1024]⟩
abbrev S16x2048x256 : Shape := ⟨3, ![16, 2048, 256]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x256, .f32⟩
  | .hbm, ⟨3, _⟩ => ⟨S1024x256, .f32⟩
  | .hbm, ⟨4, _⟩ => ⟨S1024x1024, .f32⟩
  | .hbm, ⟨5, _⟩ => ⟨S16x2048x256, .f32⟩
  | .hbm, ⟨6, _⟩ => ⟨S16x2048x256, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x256_S16x2048x256_2_0_01_1_n_n_wf : DotDims.WF S16x2048x1024 S1024x256 S16x2048x256 [2] [0] [0, 1] [1] [] []
  dot_S16x2048x256_S16x2048x256_S16x2048x2048_2_2_1_1_0_0_wf : DotDims.WF S16x2048x256 S16x2048x256 S16x2048x2048 [2] [2] [1] [1] [0] [0]
  dot_S16x2048x1024_S1024x1024_S16x2048x1024_2_0_01_1_n_n_wf : DotDims.WF S16x2048x1024 S1024x1024 S16x2048x1024 [2] [0] [0, 1] [1] [] []
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x256_S16x2048x256_2_0_01_1_n_n : DotDims S16x2048x1024 S1024x256 S16x2048x256 where
  lhsContracting := [2]
  rhsContracting := [0]
  lhsNonContracting := [0, 1]
  rhsNonContracting := [1]
  lhsBatch := []
  rhsBatch := []
  wf := dot_S16x2048x1024_S1024x256_S16x2048x256_2_0_01_1_n_n_wf
def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Matmul.lean ====
/-
  The five matrix products of the two kernel bodies, read at an output entry: with a zero accumulator each is the plain
  sum over the contracted coordinate of the products of the operands' entries.  Four contract the left operand's columns
  with the right operand's rows; the scores contract the columns of both operands (a product with a transpose).
-/
import proofs.«421500_j33990371180653_3_alg».proof.Proof.Gen.KernelIdeal
import Idealize.ShloMosaic.Lib.ValueIdx
import Idealize.ShloMosaic.PureOps.Ideal.Laws

noncomputable section

namespace Cert.KernelIdeal.Matmul

open Idealize.ShloMosaic Idealize.ShloMosaic.ValueIdx Cert.KernelIdeal Cert.KernelIdeal.Gen
open scoped BigOperators

/-! ## [1024, 1024] · [1024, 256] -/

theorem lhs_a_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_a_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_a_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_a_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Entry (r, c) of a [1024, 1024] by [1024, 256] product onto zero: Σ_k a[r,k]·b[k,c]. -/
theorem mm_a (a : FVec Ideal S1024x1024 .bf16) (b : FVec Ideal S1024x256 .bf16) (r : Fin 1024) (c : Fin 256) :
    matmul dot_S1024x1024_S1024x256_S1024x256_1_0_0_1_n_n none a b (constant (F := Ideal) S1024x256 .f32 0x00000000#32) (ix2 r c)
      = ∑ k : Fin 1024, a (ix2 r k) * b (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k := funext fun x => Fin.ext (by
    match x with
    | ⟨0, _⟩ => exact lhs_a_0 _ _
    | ⟨1, _⟩ => exact (lhs_a_1 _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c := funext fun x => Fin.ext (by
    match x with
    | ⟨0, _⟩ => exact (rhs_a_0 _ _).trans hk
    | ⟨1, _⟩ => exact rhs_a_1 _ _)
  rw [el, er]

/-! ## [1024, 1024] · [1024, 1024] -/

theorem lhs_b_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_b_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_b_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_b_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (r, c) of a [1024, 1024] by [1024, 1024] product onto zero: Σ_k a[r,k]·b[k,c]. -/
theorem mm_b (a : FVec Ideal S1024x1024 .bf16) (b : FVec Ideal S1024x1024 .bf16) (r : Fin 1024) (c : Fin 1024) :
    matmul dot_S1024x1024_S1024x1024_S1024x1024_1_0_0_1_n_n none a b (constant (F := Ideal) S1024x1024 .f32 0x00000000#32) (ix2 r c)
      = ∑ k : Fin 1024, a (ix2 r k) * b (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k := funext fun x => Fin.ext (by
    match x with
    | ⟨0, _⟩ => exact lhs_b_0 _ _
    | ⟨1, _⟩ => exact (lhs_b_1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c := funext fun x => Fin.ext (by
    match x with
    | ⟨0, _⟩ => exact (rhs_b_0 _ _).trans hk
    | ⟨1, _⟩ => exact rhs_b_1 _ _)
  rw [el, er]

/-! ## [512, 1024] · [1024, 256] -/

theorem lhs_c_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_c_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_c_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_c_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Entry (r, c) of a [512, 1024] by [1024, 256] product onto zero: Σ_k a[r,k]·b[k,c]. -/
theorem mm_c (a : FVec Ideal S512x1024 .bf16) (b : FVec Ideal S1024x256 .bf16) (r : Fin 512) (c : Fin 256) :
    matmul dot_S512x1024_S1024x256_S512x256_1_0_0_1_n_n none a b (constant (F := Ideal) S512x256 .f32 0x00000000#32) (ix2 r c)
      = ∑ k : Fin 1024, a (ix2 r k) * b (ix2 k c) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r c) ((contrEquiv1 dot_S512x1024_S1024x256_S512x256_1_0_0_1_n_n 1024 rfl rfl).symm k) = ix2 r k := funext fun x => Fin.ext (by
    match x with
    | ⟨0, _⟩ => exact lhs_c_0 _ _
    | ⟨1, _⟩ => exact (lhs_c_1 _ _).trans hk)
  have er : dot_S512x1024_S1024x256_S512x256_1_0_0_1_n_n.rhsIdx (ix2 r c) ((contrEquiv1 dot_S512x1024_S1024x256_S512x256_1_0_0_1_n_n 1024 rfl rfl).symm k) = ix2 k c := funext fun x => Fin.ext (by
    match x with
    | ⟨0, _⟩ => exact (rhs_c_0 _ _).trans hk
    | ⟨1, _⟩ => exact rhs_c_1 _ _)
  rw [el, er]

/-! ## [512, 256] · [2048, 256]ᵀ -/

theorem lhs_d_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_d_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_d_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_d_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- Entry (r, t) of a [512, 256] by [2048, 256] product over the columns of both, onto zero: Σ_k a[r,k]·b[t,k]. -/
theorem mm_d (a : FVec Ideal S512x256 .bf16) (b : FVec Ideal S2048x256 .bf16) (r : Fin 512) (t : Fin 2048) :
    matmul dot_S512x256_S2048x256_S512x2048_1_1_0_0_n_n none a b (constant (F := Ideal) S512x2048 .f32 0x00000000#32) (ix2 r t)
      = ∑ k : Fin 256, a (ix2 r k) * b (ix2 t k) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 r t) ((contrEquiv1 dot_S512x256_S2048x256_S512x2048_1_1_0_0_n_n 256 rfl rfl).symm k) = ix2 r k := funext fun x => Fin.ext (by
    match x with
    | ⟨0, _⟩ => exact lhs_d_0 _ _
    | ⟨1, _⟩ => exact (lhs_d_1 _ _).trans hk)
  have er : dot_S512x256_S2048x256_S512x2048_1_1_0_0_n_n.rhsIdx (ix2 r t) ((contrEquiv1 dot_S512x256_S2048x256_S512x2048_1_1_0_0_n_n 256 rfl rfl).symm k) = ix2 t k := funext fun x => Fin.ext (by
    match x with
    | ⟨0, _⟩ => exact rhs_d_0 _ _
    | ⟨1, _⟩ => exact (rhs_d_1 _ _).trans hk)
  rw [el, er]

/-! ## [512, 2048] · [2048, 1024] -/

theorem lhs_e_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_e_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_e_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_e_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry (r, c) of a [512, 2048] by [2048, 1024] product onto zero: Σ_t a[r,t]·b[t,c]. -/
theorem mm_e (a : FVec Ideal S512x2048 .bf16) (b : FVec Ideal S2048x1024 .bf16) (r : Fin 512) (c : Fin 1024) :
    matmul dot_S512x2048_S2048x1024_S512x1024_1_0_0_1_n_n none a b (constant (F := Ideal) S512x1024 .f32 0x00000000#32) (ix2 r c)
      = ∑ t : Fin 2048, a (ix2 r t) * b (ix2 t c) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r c) ((contrEquiv1 dot_S512x2048_S2048x1024_S512x1024_1_0_0_1_n_n 2048 rfl rfl).symm k) = ix2 r k := funext fun x => Fin.ext (by
    match x with
    | ⟨0, _⟩ => exact lhs_e_0 _ _
    | ⟨1, _⟩ => exact (lhs_e_1 _ _).trans hk)
  have er : dot_S512x2048_S2048x1024_S512x1024_1_0_0_1_n_n.rhsIdx (ix2 r c) ((contrEquiv1 dot_S512x2048_S2048x1024_S512x1024_1_0_0_1_n_n 2048 rfl rfl).symm k) = ix2 k c := funext fun x => Fin.ext (by
    match x with
    | ⟨0, _⟩ => exact (rhs_e_0 _ _).trans hk
    | ⟨1, _⟩ => exact rhs_e_1 _ _)
  rw [el, er]

end Cert.KernelIdeal.Matmul

end
-- ==== Proof.Pay0.lean ====
/-
  The projection body's two stored values at an entry: with the y block [1, 1024, 1024] and a weight matrix, entry
  (0, r, k) of either store is Σ_d y[0, r, d]·W[d, k] (the changes of float format are the identity on the extended reals,
  the unit axis carries no position).
-/
import proofs.«421500_j33990371180653_3_alg».proof.Proof.Gen.KernelIdeal.Skeleton
import proofs.«421500_j33990371180653_3_alg».proof.Proof.Matmul
import Idealize.ShloMosaic.Lib.ValueLayout
import Idealize.ShloMosaic.Lib.Pipeline.Value

noncomputable section

namespace Cert.KernelIdeal.Pay0

open Idealize.ShloMosaic Idealize.ShloMosaic.ValueIdx Cert.KernelIdeal Cert.KernelIdeal.Gen Cert.KernelIdeal.Matmul
open scoped BigOperators

/-- The keys' store: entry (u, r, k) is row r of the y block against column k of the weights. -/
theorem pay2_apply (x0 : FVec Ideal S1x1024x1024 .f32) (x1 : FVec Ideal S1024x256 .bf16) (u : Fin 1) (r : Fin 1024) (k : Fin 256) :
    k0_pay2 (F := Ideal) x0 x1 (ix3 u r k) = ∑ d : Fin 1024, x0 (ix3 (0 : Fin 1) r d) * x1 (ix2 d k) := by
  simp only [k0_pay2, k0_pay1]
  rw [shapeCast_ab_1ab_apply, truncf_apply, mm_a]
  refine Finset.sum_congr rfl fun d _ => ?_
  rw [truncf_apply, shapeCast_1ab_ab_apply, shapeCast_self]

/-- The values' store: entry (u, r, e) is row r of the y block against column e of the weights. -/
theorem pay3_apply (x0 : FVec Ideal S1x1024x1024 .f32) (x2 : FVec Ideal S1024x1024 .bf16) (u : Fin 1) (r : Fin 1024) (e : Fin 1024) :
    k0_pay3 (F := Ideal) x0 x2 (ix3 u r e) = ∑ d : Fin 1024, x0 (ix3 (0 : Fin 1) r d) * x2 (ix2 d e) := by
  simp only [k0_pay3, k0_pay1]
  rw [shapeCast_ab_1ab_apply, truncf_apply, mm_b]
  refine Finset.sum_congr rfl fun d _ => ?_
  rw [truncf_apply, shapeCast_1ab_ab_apply, shapeCast_self]

end Cert.KernelIdeal.Pay0

end
-- ==== Proof.Spec.lean ====
/-
  Cross-attention with a residual, as plain functions of index on the extended reals.

  Inputs: x, y : [16, 2048, 1024], Wq, Wk : [1024, 256], Wv : [1024, 1024].
    q[b,s,k] = Σ_d x[b,s,d]·Wq[d,k]      k[b,t,k] = Σ_d y[b,t,d]·Wk[d,k]      v[b,t,e] = Σ_d y[b,t,d]·Wv[d,e]
  Two spellings of the scores: the factor 1/32 on every q entry before the contraction (`scoresK`), or the
  contraction divided by √1024 afterwards (`scoresR`).  Two spellings of the weighted average of the rows of v
  under the softmax of a score row: the unnormalised weights exp(s − max s) contracted with v and the result divided
  by their sum (`attnK`), or every weight divided by the sum first (`attnR`).  Both add x.
-/
import Idealize.ShloMosaic.PureOps.Ideal
import Idealize.ShloMosaic.Lib.ValueIdx

noncomputable section

namespace Cert.Attn

open Idealize.ShloMosaic Idealize.ShloMosaic.ValueIdx
open scoped BigOperators

abbrev SX : Shape := ⟨3, ![16, 2048, 1024]⟩
abbrev SW : Shape := ⟨2, ![1024, 256]⟩
abbrev SWV : Shape := ⟨2, ![1024, 1024]⟩
abbrev SQ : Shape := ⟨3, ![16, 2048, 256]⟩
abbrev SS : Shape := ⟨3, ![16, 2048, 2048]⟩

/-- A row of `Y` against a column of `W`: the projection into 256 features. -/
def proj256 (Y : SX.Idx → EReal) (W : SW.Idx → EReal) : SQ.Idx → EReal :=
  fun i => ∑ d : Fin 1024, Y (ix3 (i 0) (i 1) d) * W (ix2 d (i 2))

/-- The same into 1024 features. -/
def proj1024 (Y : SX.Idx → EReal) (W : SWV.Idx → EReal) : SX.Idx → EReal :=
  fun i => ∑ d : Fin 1024, Y (ix3 (i 0) (i 1) d) * W (ix2 d (i 2))

/-- The factor the kernel puts on every query entry: the f32 pattern of 2⁻⁵. -/
def scale : EReal := Ideal.ofBits .f32 0x3D000000#32

/-- The divisor the reference puts under every score: the square root of the f32 pattern of 1024. -/
def root : EReal := Ideal.sqrt (Ideal.ofBits .f32 0x44800000#32)

/-- Scores with the scale on the query side: Σ_k (q[b,s,k]·2⁻⁵)·k[b,t,k]. -/
def scoresK (Q K : SQ.Idx → EReal) : SS.Idx → EReal :=
  fun i => ∑ k : Fin 256, (Q (ix3 (i 0) (i 1) k) * scale) * K (ix3 (i 0) (i 2) k)

/-- Scores divided afterwards: (Σ_k q[b,s,k]·k[b,t,k]) / √1024. -/
def scoresR (Q K : SQ.Idx → EReal) : SS.Idx → EReal :=
  fun i => Ideal.div (∑ k : Fin 256, Q (ix3 (i 0) (i 1) k) * K (ix3 (i 0) (i 2) k)) root

/-- The largest score of row (b, s), from −∞. -/
def rowmax (S : SS.Idx → EReal) (b : Fin 16) (s : Fin 2048) : EReal :=
  (Finset.univ : Finset (Fin 2048)).fold max ⊥ (fun t => S (ix3 b s t))

/-- The unnormalised softmax weight of key t in row (b, s). -/
def wgt (S : SS.Idx → EReal) (b : Fin 16) (s : Fin 2048) (t : Fin 2048) : EReal :=
  Ideal.exp (S (ix3 b s t) - rowmax S b s)

/-- Contract the unnormalised weights with v, then divide by their sum; add x. -/
def attnK (S : SS.Idx → EReal) (V X : SX.Idx → EReal) : SX.Idx → EReal :=
  fun i => Ideal.div (∑ t : Fin 2048, wgt S (i 0) (i 1) t * V (ix3 (i 0) t (i 2)))
      (∑ t : Fin 2048, wgt S (i 0) (i 1) t) + X i

/-- Divide every weight by the sum, then contract with v; add x. -/
def attnR (S : SS.Idx → EReal) (V X : SX.Idx → EReal) : SX.Idx → EReal :=
  fun i => (∑ t : Fin 2048, Ideal.div (wgt S (i 0) (i 1) t) (∑ t' : Fin 2048, wgt S (i 0) (i 1) t') * V (ix3 (i 0) t (i 2)))
      + X i

/-! ## The three float patterns the two programs spell -/

/-- The pattern `0xFF800000` is −∞. -/
theorem ofBits_neg_inf : Ideal.ofBits .f32 0xFF800000#32 = (⊥ : EReal) := by
  simp [Ideal.ofBits, Ideal.ieee]

/-- The kernel's scale is the real 1/32. -/
theorem scale_eq : scale = ((1 / 32 : ℝ) : EReal) := by
  unfold scale
  simp [Ideal.ofBits, Ideal.ieee, -EReal.coe_mul]; norm_num

/-- The reference's divisor is the real 32: the pattern denotes 1024 = 32². -/
theorem root_eq : root = ((32 : ℝ) : EReal) := by
  unfold root
  have h : Ideal.ofBits .f32 0x44800000#32 = ((1024 : ℝ) : EReal) := by
    simp [Ideal.ofBits, Ideal.ieee, -EReal.coe_mul]; norm_num
  rw [h, Ideal.sqrt_coe, if_neg (by norm_num)]
  congr 1
  rw [show (1024 : ℝ) = 32 * 32 by norm_num]
  exact Real.sqrt_mul_self (by norm_num)

end Cert.Attn

end
-- ==== Proof.Reg0.lean ====
/-
  What the projection region leaves in its two output arrays, whatever contents V it is entered from: with y the array of
  window 0 and Wk, Wv those of windows 1 and 2, the keys' array ends as proj256 y Wk and the values' as proj1024 y Wv.
  Point t = (b, s) of the 16 × 2 grid reads rows 1024·s … 1024·s + 1023 of batch b of y and writes the same rows of both
  outputs; the 32 blocks tile each output.
-/
import proofs.«421500_j33990371180653_3_alg».proof.Proof.Gen.KernelIdeal.Frame
import proofs.«421500_j33990371180653_3_alg».proof.Proof.Pay0
import proofs.«421500_j33990371180653_3_alg».proof.Proof.Spec
import Idealize.ShloMosaic.Lib.Pipeline.Value

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen Cert.KernelIdeal.Pay0 Cert.Attn
open scoped BigOperators

variable (V : (c : Dev nD) → (b : Ref sig .tc) → Buf (Elt Ideal) ((c : Thread nD τ).loc b))

/-- The region's three input arrays at their literal types. -/
abbrev yArr (c : Dev nD) : FVec Ideal S16x2048x1024 .f32 := V c main_arg1
abbrev wkArr (c : Dev nD) : FVec Ideal S1024x256 .bf16 := V c main_v1
abbrev wvArr (c : Dev nD) : FVec Ideal S1024x1024 .bf16 := V c main_v2

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the y block and both output blocks move together on the batch and row-block
    axes and sit at 0 on the feature axis; the weights' one block is at the origin. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0 :=
  (by decide +kernel : ∀ t : Fin grid0.N, _)

/-- Every (batch, row-block) pair is some point's. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-! ## The keys' array (window 3) -/

/-- What point t writes back to the keys' array is its block of proj256 y Wk. -/
theorem flushed3_eq (c : Dev nD) (t : Fin cfg0.N) :
    (dat0 V c).flushed 3 t = ((cfg0.win 3).blk t).view.read (Elt Ideal) (proj256 (yArr V c) (wkArr V c)) := by
  show (cfg0.win 3).cut (grid0.coords t) ((dat0 V c).after 3 t) = _
  rw [after0_3]
  unfold out0_3
  rw [View.canon_unit_zero hz3]
  simp only [View.ld_unit_zero (S := S1x1024x1024) hz3, View.ld_unit_zero (S := S1024x256) hz2]
  obtain ⟨e0, e1, e2, e3, e4, e5, -, -, -, -, -⟩ := idx_facts t
  funext j
  obtain ⟨u, r, k, rfl⟩ : ∃ (u : Fin 1) (r : Fin 1024) (k : Fin 256), j = ix3 u r k := ⟨j 0, j 1, j 2, eq_ix3 j⟩
  refine (pay2_apply (iblk0 V c 0 t) (iblk0 V c 1 t) u r k).trans ?_
  show _ = ∑ d : Fin 1024, yArr V c (ix3 ((((cfg0.win 3).blk t).view.emb (ix3 u r k)) 0) ((((cfg0.win 3).blk t).view.emb (ix3 u r k)) 1) d)
      * wkArr V c (ix2 d ((((cfg0.win 3).blk t).view.emb (ix3 u r k)) 2))
  refine Finset.sum_congr rfl fun d _ => ?_
  show yArr V c (((cfg0.win 0).blk t).view.emb (ix3 (0 : Fin 1) r d)) * wkArr V c (((cfg0.win 1).blk t).view.emb (ix2 d k)) = _
  have hu : u.val = 0 := by omega
  have h0 : ((cfg0.win 0).blk t).view.emb (ix3 (0 : Fin 1) r d)
      = ix3 ((((cfg0.win 3).blk t).view.emb (ix3 u r k)) 0) ((((cfg0.win 3).blk t).view.emb (ix3 u r k)) 1) d := by
    funext a; apply Fin.ext
    match a with
    | ⟨0, _⟩ => show win0_0.index t (0 : Fin 3) * 1 + 1 * 0 = win0_3.index t (0 : Fin 3) * 1 + 1 * u.val; omega
    | ⟨1, _⟩ => show win0_0.index t (1 : Fin 3) * 1024 + 1 * r.val = win0_3.index t (1 : Fin 3) * 1024 + 1 * r.val; omega
    | ⟨2, _⟩ => show win0_0.index t (2 : Fin 3) * 1024 + 1 * d.val = d.val; omega
  have h1 : ((cfg0.win 1).blk t).view.emb (ix2 d k) = ix2 d ((((cfg0.win 3).blk t).view.emb (ix3 u r k)) 2) := by
    funext a; apply Fin.ext
    match a with
    | ⟨0, _⟩ => show win0_1.index t (0 : Fin 2) * 1024 + 1 * d.val = d.val; omega
    | ⟨1, _⟩ => show win0_1.index t (1 : Fin 2) * 256 + 1 * k.val = win0_3.index t (2 : Fin 3) * 256 + 1 * k.val; omega
  rw [h0, h1]
  rfl

/-- An index of the keys' array is in point t's block iff each coordinate is in the block's range. -/
theorem mem_blk3 (t : Fin cfg0.N) (i : S16x2048x256.Idx) :
    i ∈ ((cfg0.win 3).blk t).view.set ↔ ∀ a : Fin 3, win0_3.index t a * S1x1024x256.size a ≤ (i a).val ∧ (i a).val < win0_3.index t a * S1x1024x256.size a + S1x1024x256.size a := by
  show i ∈ ((View.whole main_v3_0).slice (win0_3.rect t)).set ↔ _
  rw [View.set_slice_whole, Rect.mem_set_unit]
  exact Iff.rfl

/-- Every index of the keys' array is in the block of the point at (its batch, its row / 1024). -/
theorem cover3 (i : S16x2048x256.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- The keys' array after the region: the projection of y by Wk. -/
theorem keys (c : Dev nD) : (dat0 V c).arrAt 3 cfg0.N = proj256 (yArr V c) (wkArr V c) :=
  (dat0 V c).arrAt_eq_of_cover 3 _ (fun t _ => flushed3_eq V c t) cover3

/-! ## The values' array (window 4) -/

/-- What point t writes back to the values' array is its block of proj1024 y Wv. -/
theorem flushed4_eq (c : Dev nD) (t : Fin cfg0.N) :
    (dat0 V c).flushed 4 t = ((cfg0.win 4).blk t).view.read (Elt Ideal) (proj1024 (yArr V c) (wvArr V c)) := by
  show (cfg0.win 4).cut (grid0.coords t) ((dat0 V c).after 4 t) = _
  rw [after0_4]
  unfold out0_4
  rw [View.canon_unit_zero hz3]
  simp only [View.ld_unit_zero (S := S1x1024x1024) hz3, View.ld_unit_zero (S := S1024x1024) hz2]
  obtain ⟨e0, e1, e2, -, -, -, e6, e7, e8, e9, e10⟩ := idx_facts t
  funext j
  obtain ⟨u, r, k, rfl⟩ : ∃ (u : Fin 1) (r : Fin 1024) (k : Fin 1024), j = ix3 u r k := ⟨j 0, j 1, j 2, eq_ix3 j⟩
  refine (pay3_apply (iblk0 V c 0 t) (iblk0 V c 2 t) u r k).trans ?_
  show _ = ∑ d : Fin 1024, yArr V c (ix3 ((((cfg0.win 4).blk t).view.emb (ix3 u r k)) 0) ((((cfg0.win 4).blk t).view.emb (ix3 u r k)) 1) d)
      * wvArr V c (ix2 d ((((cfg0.win 4).blk t).view.emb (ix3 u r k)) 2))
  refine Finset.sum_congr rfl fun d _ => ?_
  show yArr V c (((cfg0.win 0).blk t).view.emb (ix3 (0 : Fin 1) r d)) * wvArr V c (((cfg0.win 2).blk t).view.emb (ix2 d k)) = _
  have hu : u.val = 0 := by omega
  have h0 : ((cfg0.win 0).blk t).view.emb (ix3 (0 : Fin 1) r d)
      = ix3 ((((cfg0.win 4).blk t).view.emb (ix3 u r k)) 0) ((((cfg0.win 4).blk t).view.emb (ix3 u r k)) 1) d := by
    funext a; apply Fin.ext
    match a with
    | ⟨0, _⟩ => show win0_0.index t (0 : Fin 3) * 1 + 1 * 0 = win0_4.index t (0 : Fin 3) * 1 + 1 * u.val; omega
    | ⟨1, _⟩ => show win0_0.index t (1 : Fin 3) * 1024 + 1 * r.val = win0_4.index t (1 : Fin 3) * 1024 + 1 * r.val; omega
    | ⟨2, _⟩ => show win0_0.index t (2 : Fin 3) * 1024 + 1 * d.val = d.val; omega
  have h1 : ((cfg0.win 2).blk t).view.emb (ix2 d k) = ix2 d ((((cfg0.win 4).blk t).view.emb (ix3 u r k)) 2) := by
    funext a; apply Fin.ext
    match a with
    | ⟨0, _⟩ => show win0_2.index t (0 : Fin 2) * 1024 + 1 * d.val = d.val; omega
    | ⟨1, _⟩ => show win0_2.index t (1 : Fin 2) * 1024 + 1 * k.val = win0_4.index t (2 : Fin 3) * 1024 + 1 * k.val; omega
  rw [h0, h1]
  rfl

/-- An index of the values' array is in point t's block iff each coordinate is in the block's range. -/
theorem mem_blk4 (t : Fin cfg0.N) (i : S16x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v3_1).slice (win0_4.rect t)).set ↔ _
  rw [View.set_slice_whole, Rect.mem_set_unit]
  exact Iff.rfl

/-- Every index of the values' array is in the block of the point at (its batch, its row / 1024). -/
theorem cover4 (i : S16x2048x1024.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  obtain ⟨-, -, -, -, -, -, -, -, e8, e9, e10⟩ := idx_facts t
  have q0 : win0_3.index t (0 : Fin 3) = (i 0).val := congrFun ht 0
  have q1 : win0_3.index t (1 : Fin 3) = (i 1).val / 1024 := congrFun ht 1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The values' array after the region: the projection of y by Wv. -/
theorem values (c : Dev nD) : (dat0 V c).arrAt 4 cfg0.N = proj1024 (yArr V c) (wvArr V c) :=
  (dat0 V c).arrAt_eq_of_cover 4 _ (fun t _ => flushed4_eq V c t) cover4

end Cert.KernelIdeal.Reg0

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.Pay1.lean ====
/-
  The attention body's stored value at an entry.  With the x block [1, 512, 1024], Wq, the keys' block [1, 2048, 256] and the
  values' block [1, 2048, 1024], entry (0, r, e) of the store is
      (Σ_t w_t · v[0, t, e]) / (Σ_t w_t) + x[0, r, e],      w_t = exp (s_t − max_t' s_t'),
      s_t = Σ_k ((Σ_d x[0, r, d]·Wq[d, k])·2⁻⁵)·k[0, t, k].
  The row's data enter only through their entries, so the statement takes them as plain functions of coordinates.
-/
import proofs.«421500_j33990371180653_3_alg».proof.Proof.Gen.KernelIdeal.Skeleton
import proofs.«421500_j33990371180653_3_alg».proof.Proof.Matmul
import proofs.«421500_j33990371180653_3_alg».proof.Proof.LibUnitAxes
import proofs.«421500_j33990371180653_3_alg».proof.Proof.Spec
import Idealize.ShloMosaic.Lib.ValueLayout
import Idealize.ShloMosaic.Lib.Pipeline.Value
import Idealize.ShloMosaic.PureOps.Ideal.Laws

noncomputable section

namespace Cert.KernelIdeal.Pay1

open Idealize.ShloMosaic Idealize.ShloMosaic.ValueIdx Cert.KernelIdeal Cert.KernelIdeal.Gen Cert.KernelIdeal.Matmul Cert.Lib
open scoped BigOperators

/-! ## One query row against all keys, over plain coordinates -/

/-- The score of key t: Σ_k ((Σ_d X_d·WQ_{d,k})·2⁻⁵)·K_{t,k}. -/
def rowScore (X : Fin 1024 → EReal) (WQ : Fin 1024 → Fin 256 → EReal) (Kk : Fin 2048 → Fin 256 → EReal) (t : Fin 2048) : EReal :=
  ∑ k : Fin 256, ((∑ d : Fin 1024, X d * WQ d k) * Cert.Attn.scale) * Kk t k

/-- The unnormalised weight of key t: exp (score − largest score). -/
def rowWgt (X : Fin 1024 → EReal) (WQ : Fin 1024 → Fin 256 → EReal) (Kk : Fin 2048 → Fin 256 → EReal) (t : Fin 2048) : EReal :=
  Ideal.exp (rowScore X WQ Kk t - (Finset.univ : Finset (Fin 2048)).fold max ⊥ (fun t' => rowScore X WQ Kk t'))

/-- The weighted sum of one column of values over the sum of the weights. -/
def rowAttn (X : Fin 1024 → EReal) (WQ : Fin 1024 → Fin 256 → EReal) (Kk : Fin 2048 → Fin 256 → EReal) (Vv : Fin 2048 → EReal) : EReal :=
  Ideal.div (∑ t : Fin 2048, rowWgt X WQ Kk t * Vv t) (∑ t : Fin 2048, rowWgt X WQ Kk t)

/-! ## The body's intermediate blocks -/

/-- The [512, 2048] block of scores the body forms from its three loads. -/
def scoreBlk (x0 : FVec Ideal S1x512x1024 .f32) (x1 : FVec Ideal S1024x256 .bf16) (x2 : FVec Ideal S1x2048x256 .bf16) : FVec Ideal S512x2048 .f32 :=
  matmul dot_S512x256_S2048x256_S512x2048_1_1_0_0_n_n none
    (truncf .bf16 (mulf (matmul dot_S512x1024_S1024x256_S512x256_1_0_0_1_n_n none
        (truncf .bf16 (shapeCast S512x1024 x0 shapeCasts_S1x512x1024_S512x1024) bitsLt_bf16_f32)
        (shapeCast S1024x256 x1 shapeCasts_S1024x256_S1024x256) (constant S512x256 .f32 0x00000000#32))
      (broadcast S512x256 (Scalar.ofBits .f32 0x3D000000#32))) bitsLt_bf16_f32)
    (shapeCast S2048x256 x2 shapeCasts_S1x2048x256_S2048x256) (constant S512x2048 .f32 0x00000000#32)

/-- The [512, 2048] block of unnormalised weights: exp (score − row maximum). -/
def wgtBlk (x0 : FVec Ideal S1x512x1024 .f32) (x1 : FVec Ideal S1024x256 .bf16) (x2 : FVec Ideal S1x2048x256 .bf16) : FVec Ideal S512x2048 .f32 :=
  exp (subf (scoreBlk x0 x1 x2) (broadcastTo S512x2048 (shapeCast S512x1
    (multiReduction .maximumf [1] S512 (scoreBlk x0 x1 x2) 0xFF800000#32 reduces_S512x2048_S512 (.inl rfl) rfl)
    shapeCasts_S512_S512x1) broadcasts_S512x1_S512x2048))

/-- The stored value over those two blocks. -/
theorem pay1_eq (x0 : FVec Ideal S1x512x1024 .f32) (x1 : FVec Ideal S1024x256 .bf16) (x2 : FVec Ideal S1x2048x256 .bf16)
    (x3 : FVec Ideal S1x2048x1024 .bf16) (x0' : FVec Ideal S1x512x1024 .f32) :
    k1_pay1 (F := Ideal) x0 x1 x2 x3 x0'
      = shapeCast S1x512x1024 (addf (divf
          (matmul dot_S512x2048_S2048x1024_S512x1024_1_0_0_1_n_n none (truncf .bf16 (wgtBlk x0 x1 x2) bitsLt_bf16_f32)
            (shapeCast S2048x1024 x3 shapeCasts_S1x2048x1024_S2048x1024) (constant S512x1024 .f32 0x00000000#32))
          (broadcastTo S512x1024 (shapeCast S512x1
            (multiReduction .add [1] S512 (wgtBlk x0 x1 x2) 0x00000000#32 reduces_S512x2048_S512 (.inl rfl) rfl)
            shapeCasts_S512_S512x1) broadcasts_S512x1_S512x1024))
          (shapeCast S512x1024 x0' shapeCasts_S1x512x1024_S512x1024)) shapeCasts_S512x1024_S1x512x1024 := rfl

section Row

variable (x0 : FVec Ideal S1x512x1024 .f32) (x1 : FVec Ideal S1024x256 .bf16) (x2 : FVec Ideal S1x2048x256 .bf16)
  (x3 : FVec Ideal S1x2048x1024 .bf16) (r : Fin 512)
  (X : Fin 1024 → EReal) (hX : ∀ d, x0 (ix3 (0 : Fin 1) r d) = X d)
  (WQ : Fin 1024 → Fin 256 → EReal) (hW : ∀ d k, x1 (ix2 d k) = WQ d k)
  (Kk : Fin 2048 → Fin 256 → EReal) (hK : ∀ t k, x2 (ix3 (0 : Fin 1) t k) = Kk t k)

include hX hW hK

/-- Row r of the score block is the row's scores. -/
theorem scoreBlk_apply (t : Fin 2048) : scoreBlk x0 x1 x2 (ix2 r t) = rowScore X WQ Kk t := by
  unfold scoreBlk rowScore
  rw [mm_d]
  refine Finset.sum_congr rfl fun k _ => ?_
  rw [truncf_apply, mulf_apply, mm_c, shapeCast_1ab_ab_apply, hK]
  refine congrArg₂ (· * ·) (congrArg₂ (· * ·) (Finset.sum_congr rfl fun d _ => ?_) rfl) rfl
  rw [truncf_apply, shapeCast_1ab_ab_apply, shapeCast_self, hX, hW]

/-- Row r's maximum over the keys, from −∞. -/
theorem rowMax_apply :
    multiReduction .maximumf [1] S512 (scoreBlk x0 x1 x2) 0xFF800000#32 reduces_S512x2048_S512 (.inl rfl) rfl (ix1 r)
      = (Finset.univ : Finset (Fin 2048)).fold max ⊥ (fun t => rowScore X WQ Kk t) := by
  refine (Ideal.multiReduction_maximumf_single (scoreBlk x0 x1 x2) 0xFF800000#32 reduces_S512x2048_S512 (.inl rfl) rfl (ix1 r)).trans ?_
  rw [Ideal.ofBits_def, Cert.Attn.ofBits_neg_inf]
  show (Finset.univ : Finset (Fin 2048)).fold max ⊥ (fun t => scoreBlk x0 x1 x2 (reduces_S512x2048_S512.lift (ix1 r) t)) = _
  refine Finset.fold_congr fun t _ => ?_
  rw [lift_row_col]
  exact scoreBlk_apply x0 x1 x2 r X hX WQ hW Kk hK t

/-- Row r of the weight block is the row's weights. -/
theorem wgtBlk_apply (t : Fin 2048) : wgtBlk x0 x1 x2 (ix2 r t) = rowWgt X WQ Kk t := by
  unfold wgtBlk rowWgt
  show Ideal.exp (subf (scoreBlk x0 x1 x2) _ (ix2 r t)) = _
  rw [subf_apply, column_spread_apply, scoreBlk_apply x0 x1 x2 r X hX WQ hW Kk hK, rowMax_apply x0 x1 x2 r X hX WQ hW Kk hK]

/-- THE STORED VALUE AT (u, r, e): the row's weighted average of column e of the values, plus the x entry. -/
theorem pay1_apply (u : Fin 1) (e : Fin 1024) (Vv : Fin 2048 → EReal) (hV : ∀ t, x3 (ix3 (0 : Fin 1) t e) = Vv t)
    (xr : EReal) (hxr : x0 (ix3 (0 : Fin 1) r e) = xr) :
    k1_pay1 (F := Ideal) x0 x1 x2 x3 x0 (ix3 u r e) = rowAttn X WQ Kk Vv + xr := by
  rw [pay1_eq, shapeCast_ab_1ab_apply, addf_apply, divf_apply, mm_e, column_spread_apply, shapeCast_1ab_ab_apply, hxr]
  unfold rowAttn
  refine congrArg (· + xr) (congrArg₂ Ideal.div (Finset.sum_congr rfl fun t _ => ?_) ?_)
  · rw [truncf_apply, wgtBlk_apply x0 x1 x2 r X hX WQ hW Kk hK, shapeCast_1ab_ab_apply, hV]
  · refine (Ideal.multiReduction_add_single (wgtBlk x0 x1 x2) 0x00000000#32 reduces_S512x2048_S512 (.inl rfl) rfl (ix1 r)).trans ?_
    show ∑ t : Fin 2048, wgtBlk x0 x1 x2 (reduces_S512x2048_S512.lift (ix1 r) t) = _
    refine Finset.sum_congr rfl fun t _ => ?_
    exact (congrArg (wgtBlk x0 x1 x2) (lift_row_col reduces_S512x2048_S512 r t)).trans
      (wgtBlk_apply x0 x1 x2 r X hX WQ hW Kk hK t)

end Row

end Cert.KernelIdeal.Pay1

end
-- ==== Proof.Reg1.lean ====
/-
  What the attention region leaves in its output array, whatever contents V it is entered from: with x, Wq, k, v the arrays
  of windows 0 to 3, the output ends as attnK (scoresK (proj256 x Wq) k) v x.  Point t = (b, qi) of the 16 × 4 grid reads
  rows 512·qi … 512·qi + 511 of batch b of x, all of Wq, and batch b of k and v whole, and writes the same rows of the
  output; the 64 blocks tile it.
-/
import proofs.«421500_j33990371180653_3_alg».proof.Proof.Gen.KernelIdeal.Frame
import proofs.«421500_j33990371180653_3_alg».proof.Proof.Pay1
import proofs.«421500_j33990371180653_3_alg».proof.Proof.Spec
import Idealize.ShloMosaic.Lib.Pipeline.Value

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen Cert.KernelIdeal.Pay1 Cert.Attn
open scoped BigOperators

variable (V : (c : Dev nD) → (b : Ref sig .tc) → Buf (Elt Ideal) ((c : Thread nD τ).loc b))

/-- The region's four input arrays at their literal types. -/
abbrev xArr (c : Dev nD) : FVec Ideal S16x2048x1024 .f32 := V c main_arg0
abbrev wqArr (c : Dev nD) : FVec Ideal S1024x256 .bf16 := V c main_v0
abbrev kArr (c : Dev nD) : FVec Ideal S16x2048x256 .bf16 := V c main_v3_0
abbrev vArr (c : Dev nD) : FVec Ideal S16x2048x1024 .bf16 := V c main_v3_1

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the x block and the output block move together on the batch and row-block axes;
    the keys' and values' blocks follow the batch only; everything else sits at 0. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0 ∧ win1_4.index t (2 : Fin 3) = 0
    ∧ win1_1.index t (0 : Fin 2) = 0 ∧ win1_1.index t (1 : Fin 2) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0 :=
  (by decide +kernel : ∀ t : Fin grid1.N, _)

/-- Every (batch, row-block) pair is some point's. -/
theorem idx_onto : ∀ (q0 : Fin 16) (q1 : Fin 4), ∃ t : Fin cfg1.N, win1_4.index t = ![q0.val, q1.val, 0] :=
  (by decide +kernel : ∀ (q0 : Fin 16) (q1 : Fin 4), ∃ t : Fin grid1.N, win1_4.index t = ![q0.val, q1.val, 0])

/-- What point t writes back is its block of the attention of the arrays. -/
theorem flushed4_eq (c : Dev nD) (t : Fin cfg1.N) :
    (dat1 V c).flushed 4 t = ((cfg1.win 4).blk t).view.read (Elt Ideal)
      (attnK (scoresK (proj256 (xArr V c) (wqArr V c)) (kArr V c)) (vArr V c) (xArr V c)) := by
  show (cfg1.win 4).cut (grid1.coords t) ((dat1 V c).after 4 t) = _
  rw [after1_4]
  unfold out1_4
  rw [View.canon_unit_zero hz3]
  simp only [View.ld_unit_zero (S := S1x512x1024) hz3, View.ld_unit_zero (S := S1024x256) hz2,
    View.ld_unit_zero (S := S1x2048x256) hz3, View.ld_unit_zero (S := S1x2048x1024) hz3]
  obtain ⟨e0, e1, e2, e3, e4, e5, e6, e7, e8, e9, e10, e11⟩ := idx_facts t
  funext j
  obtain ⟨u, r, e, rfl⟩ : ∃ (u : Fin 1) (r : Fin 512) (e : Fin 1024), j = ix3 u r e := ⟨j 0, j 1, j 2, eq_ix3 j⟩
  have hu : u.val = 0 := by omega
  refine (pay1_apply (iblk1 V c 0 t) (iblk1 V c 1 t) (iblk1 V c 2 t) (iblk1 V c 3 t) r
    (fun d => xArr V c (ix3 ((((cfg1.win 4).blk t).view.emb (ix3 u r e)) 0) ((((cfg1.win 4).blk t).view.emb (ix3 u r e)) 1) d)) ?_
    (fun d k => wqArr V c (ix2 d k)) ?_
    (fun t' k => kArr V c (ix3 ((((cfg1.win 4).blk t).view.emb (ix3 u r e)) 0) t' k)) ?_
    u e (fun t' => vArr V c (ix3 ((((cfg1.win 4).blk t).view.emb (ix3 u r e)) 0) t' ((((cfg1.win 4).blk t).view.emb (ix3 u r e)) 2))) ?_
    (xArr V c (((cfg1.win 4).blk t).view.emb (ix3 u r e))) ?_).trans ?_
  · intro d
    show xArr V c (((cfg1.win 0).blk t).view.emb (ix3 (0 : Fin 1) r d)) = _
    refine congrArg (xArr V c) (funext fun a => Fin.ext ?_)
    match a with
    | ⟨0, _⟩ => show win1_0.index t (0 : Fin 3) * 1 + 1 * 0 = win1_4.index t (0 : Fin 3) * 1 + 1 * u.val; omega
    | ⟨1, _⟩ => show win1_0.index t (1 : Fin 3) * 512 + 1 * r.val = win1_4.index t (1 : Fin 3) * 512 + 1 * r.val; omega
    | ⟨2, _⟩ => show win1_0.index t (2 : Fin 3) * 1024 + 1 * d.val = d.val; omega
  · intro d k
    show wqArr V c (((cfg1.win 1).blk t).view.emb (ix2 d k)) = _
    refine congrArg (wqArr V c) (funext fun a => Fin.ext ?_)
    match a with
    | ⟨0, _⟩ => show win1_1.index t (0 : Fin 2) * 1024 + 1 * d.val = d.val; omega
    | ⟨1, _⟩ => show win1_1.index t (1 : Fin 2) * 256 + 1 * k.val = k.val; omega
  · intro t' k
    show kArr V c (((cfg1.win 2).blk t).view.emb (ix3 (0 : Fin 1) t' k)) = _
    refine congrArg (kArr V c) (funext fun a => Fin.ext ?_)
    match a with
    | ⟨0, _⟩ => show win1_2.index t (0 : Fin 3) * 1 + 1 * 0 = win1_4.index t (0 : Fin 3) * 1 + 1 * u.val; omega
    | ⟨1, _⟩ => show win1_2.index t (1 : Fin 3) * 2048 + 1 * t'.val = t'.val; omega
    | ⟨2, _⟩ => show win1_2.index t (2 : Fin 3) * 256 + 1 * k.val = k.val; omega
  · intro t'
    show vArr V c (((cfg1.win 3).blk t).view.emb (ix3 (0 : Fin 1) t' e)) = _
    refine congrArg (vArr V c) (funext fun a => Fin.ext ?_)
    match a with
    | ⟨0, _⟩ => show win1_3.index t (0 : Fin 3) * 1 + 1 * 0 = win1_4.index t (0 : Fin 3) * 1 + 1 * u.val; omega
    | ⟨1, _⟩ => show win1_3.index t (1 : Fin 3) * 2048 + 1 * t'.val = t'.val; omega
    | ⟨2, _⟩ => show win1_3.index t (2 : Fin 3) * 1024 + 1 * e.val = win1_4.index t (2 : Fin 3) * 1024 + 1 * e.val; omega
  · show xArr V c (((cfg1.win 0).blk t).view.emb (ix3 (0 : Fin 1) r e)) = _
    refine congrArg (xArr V c) (funext fun a => Fin.ext ?_)
    match a with
    | ⟨0, _⟩ => show win1_0.index t (0 : Fin 3) * 1 + 1 * 0 = win1_4.index t (0 : Fin 3) * 1 + 1 * u.val; omega
    | ⟨1, _⟩ => show win1_0.index t (1 : Fin 3) * 512 + 1 * r.val = win1_4.index t (1 : Fin 3) * 512 + 1 * r.val; omega
    | ⟨2, _⟩ => show win1_0.index t (2 : Fin 3) * 1024 + 1 * e.val = win1_4.index t (2 : Fin 3) * 1024 + 1 * e.val; omega
  · rfl

/-- An index of the output array is in point t's block iff each coordinate is in the block's range. -/
theorem mem_blk4 (t : Fin cfg1.N) (i : S16x2048x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v4).slice (win1_4.rect t)).set ↔ _
  rw [View.set_slice_whole, Rect.mem_set_unit]
  exact Iff.rfl

/-- Every index of the output array is in the block of the point at (its batch, its row / 512). -/
theorem cover4 (i : S16x2048x1024.Idx) : ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- The output array after the region: the attention of the four arrays, plus x. -/
theorem output (c : Dev nD) :
    (dat1 V c).arrAt 4 cfg1.N = attnK (scoresK (proj256 (xArr V c) (wqArr V c)) (kArr V c)) (vArr V c) (xArr V c) :=
  (dat1 V c).arrAt_eq_of_cover 4 _ (fun t _ => flushed4_eq V c t) cover4

end Cert.KernelIdeal.Reg1

end
-- ==== Proof.KernelValue.lean ====
/-
  The idealized kernel's result as a function of its five arguments.  The first host stretch only changes float formats
  (the identity on the extended reals), the projection region fills the keys' and values' arrays from y, and the attention
  region fills the result from x, Wq and those two arrays; reading the boundary contents back gives
      result = attnK (scoresK (proj256 x Wq) (proj256 y Wk)) (proj1024 y Wv) x.
-/
import proofs.«421500_j33990371180653_3_alg».proof.Proof.Gen.KernelIdeal.Frame
import proofs.«421500_j33990371180653_3_alg».proof.Proof.Reg0
import proofs.«421500_j33990371180653_3_alg».proof.Proof.Reg1
import proofs.«421500_j33990371180653_3_alg».proof.Proof.Spec
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.Attn

variable (m : (ℓ : Loc nD τ sig) → Buf (Elt Ideal) ℓ) (ρ : Dev nD → PrngReg)

/-- Equal inputs give equal attention. -/
theorem attn_congr {x x' : SX.Idx → EReal} {wq wq' : SW.Idx → EReal} {k k' : SQ.Idx → EReal} {v v' : SX.Idx → EReal}
    (hx : x = x') (hwq : wq = wq') (hk : k = k') (hv : v = v') :
    attnK (scoresK (proj256 x wq) k) v x = attnK (scoresK (proj256 x' wq') k') v' x' := by
  subst hx hwq hk hv; rfl

theorem proj256_congr {y y' : SX.Idx → EReal} {w w' : SW.Idx → EReal} (hy : y = y') (hw : w = w') :
    proj256 y w = proj256 y' w' := by subst hy hw; rfl

theorem proj1024_congr {y y' : SX.Idx → EReal} {w w' : SWV.Idx → EReal} (hy : y = y') (hw : w = w') :
    proj1024 y w = proj1024 y' w' := by subst hy hw; rfl

/-! ## The contents at the projection region's entry: the arguments, and the three weights through a format change -/

theorem entry_x (c : Dev nD) : (V1 m ρ c main_arg0 : SX.Idx → EReal) = m ((c.tc : Thread nD τ).loc main_arg0) := by
  show StableHlo.after hostOps0 (W0 m ρ c) (Proc.devRef .tc main_arg0) = _
  after_results
theorem entry_y (c : Dev nD) : (V1 m ρ c main_arg1 : SX.Idx → EReal) = m ((c.tc : Thread nD τ).loc main_arg1) := by
  show StableHlo.after hostOps0 (W0 m ρ c) (Proc.devRef .tc main_arg1) = _
  after_results
theorem entry_wq (c : Dev nD) : (V1 m ρ c main_v0 : SW.Idx → EReal) = m ((c.tc : Thread nD τ).loc main_arg2) := by
  show StableHlo.after hostOps0 (W0 m ρ c) (Proc.devRef .tc main_v0) = _
  after_results
  rfl
theorem entry_wk (c : Dev nD) : (V1 m ρ c main_v1 : SW.Idx → EReal) = m ((c.tc : Thread nD τ).loc main_arg3) := by
  show StableHlo.after hostOps0 (W0 m ρ c) (Proc.devRef .tc main_v1) = _
  after_results
  rfl
theorem entry_wv (c : Dev nD) : (V1 m ρ c main_v2 : SWV.Idx → EReal) = m ((c.tc : Thread nD τ).loc main_arg4) := by
  show StableHlo.after hostOps0 (W0 m ρ c) (Proc.devRef .tc main_v2) = _
  after_results
  rfl

/-! ## The contents at the attention region's entry -/

theorem mid_x (c : Dev nD) : (V2 m ρ c main_arg0 : SX.Idx → EReal) = m ((c.tc : Thread nD τ).loc main_arg0) :=
  (W2_of_ne m ρ c main_arg0 (by decide)).trans (entry_x m ρ c)
theorem mid_wq (c : Dev nD) : (V2 m ρ c main_v0 : SW.Idx → EReal) = m ((c.tc : Thread nD τ).loc main_arg2) :=
  (W2_of_ne m ρ c main_v0 (by decide)).trans (entry_wq m ρ c)
theorem mid_k (c : Dev nD) : (V2 m ρ c main_v3_0 : SQ.Idx → EReal)
    = proj256 (m ((c.tc : Thread nD τ).loc main_arg1)) (m ((c.tc : Thread nD τ).loc main_arg3)) :=
  ((W2_arr m ρ c 3).trans (Reg0.keys (V1 m ρ) c)).trans (proj256_congr (entry_y m ρ c) (entry_wk m ρ c))
theorem mid_v (c : Dev nD) : (V2 m ρ c main_v3_1 : SX.Idx → EReal)
    = proj1024 (m ((c.tc : Thread nD τ).loc main_arg1)) (m ((c.tc : Thread nD τ).loc main_arg4)) :=
  ((W2_arr m ρ c 4).trans (Reg0.values (V1 m ρ) c)).trans (proj1024_congr (entry_y m ρ c) (entry_wv m ρ c))

/-- THE RESULT: what the last boundary holds in the result buffer, as a function of the launch arguments. -/
theorem result_eq (c : Dev nD) : (W3 m ρ c (Proc.devRef .tc main_v4) : SX.Idx → EReal)
    = attnK (scoresK (proj256 (m ((c.tc : Thread nD τ).loc main_arg0)) (m ((c.tc : Thread nD τ).loc main_arg2)))
          (proj256 (m ((c.tc : Thread nD τ).loc main_arg1)) (m ((c.tc : Thread nD τ).loc main_arg3))))
        (proj1024 (m ((c.tc : Thread nD τ).loc main_arg1)) (m ((c.tc : Thread nD τ).loc main_arg4)))
        (m ((c.tc : Thread nD τ).loc main_arg0)) :=
  ((W3_arr m ρ c 4).trans (Reg1.output (V2 m ρ) c)).trans
    (attn_congr (mid_x m ρ c) (mid_wq m ρ c) (mid_k m ρ c) (mid_v m ρ c))

end Cert.KernelIdeal.KernelValue

end
-- ==== Proof.RefValue.lean ====
/-
  The reference's result, stage by stage, is `attnR` over `scoresR` of the three projections.
-/
import proofs.«421500_j33990371180653_3_alg».proof.Proof.Spec
import proofs.«421500_j33990371180653_3_alg».proof.Proof.Gen.ReferenceIdeal.Run
import proofs.«421500_j33990371180653_3_alg».proof.Proof.Gen.ReferenceIdeal.Read
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.Read Cert.Attn
open scoped BigOperators

/-! ## The stages' index functions, by coordinates -/

theorem lidx0_eq (j : S16x2048x256.Idx) (d : Fin 1024) : lidx_main_v0 j d = @ix3 16 2048 1024 (j 0) (j 1) d :=
  funext fun a => Fin.ext (by match a with | ⟨0, _⟩ => rfl | ⟨1, _⟩ => rfl | ⟨2, _⟩ => rfl)
theorem ridx0_eq (j : S16x2048x256.Idx) (d : Fin 1024) : ridx_main_v0 j d = @ix2 1024 256 d (j 2) :=
  funext fun a => Fin.ext (by match a with | ⟨0, _⟩ => rfl | ⟨1, _⟩ => rfl)
theorem lidx1_eq (j : S16x2048x256.Idx) (d : Fin 1024) : lidx_main_v1 j d = @ix3 16 2048 1024 (j 0) (j 1) d :=
  funext fun a => Fin.ext (by match a with | ⟨0, _⟩ => rfl | ⟨1, _⟩ => rfl | ⟨2, _⟩ => rfl)
theorem ridx1_eq (j : S16x2048x256.Idx) (d : Fin 1024) : ridx_main_v1 j d = @ix2 1024 256 d (j 2) :=
  funext fun a => Fin.ext (by match a with | ⟨0, _⟩ => rfl | ⟨1, _⟩ => rfl)
theorem lidx17_eq (j : S16x2048x1024.Idx) (d : Fin 1024) : lidx_main_v17 j d = @ix3 16 2048 1024 (j 0) (j 1) d :=
  funext fun a => Fin.ext (by match a with | ⟨0, _⟩ => rfl | ⟨1, _⟩ => rfl | ⟨2, _⟩ => rfl)
theorem ridx17_eq (j : S16x2048x1024.Idx) (d : Fin 1024) : ridx_main_v17 j d = @ix2 1024 1024 d (j 2) :=
  funext fun a => Fin.ext (by match a with | ⟨0, _⟩ => rfl | ⟨1, _⟩ => rfl)
theorem lidx2_eq (j : S16x2048x2048.Idx) (k : Fin 256) : lidx_main_v2 j k = @ix3 16 2048 256 (j 0) (j 1) k :=
  funext fun a => Fin.ext (by match a with | ⟨0, _⟩ => rfl | ⟨1, _⟩ => rfl | ⟨2, _⟩ => rfl)
theorem ridx2_eq (j : S16x2048x2048.Idx) (k : Fin 256) : ridx_main_v2 j k = @ix3 16 2048 256 (j 0) (j 2) k :=
  funext fun a => Fin.ext (by match a with | ⟨0, _⟩ => rfl | ⟨1, _⟩ => rfl | ⟨2, _⟩ => rfl)
theorem lidx18_eq (i : S16x2048x1024.Idx) (t : Fin 2048) : lidx_main_v18 i t = @ix3 16 2048 2048 (i 0) (i 1) t :=
  funext fun a => Fin.ext (by match a with | ⟨0, _⟩ => rfl | ⟨1, _⟩ => rfl | ⟨2, _⟩ => rfl)
theorem ridx18_eq (i : S16x2048x1024.Idx) (t : Fin 2048) : ridx_main_v18 i t = @ix3 16 2048 1024 (i 0) t (i 2) :=
  funext fun a => Fin.ext (by match a with | ⟨0, _⟩ => rfl | ⟨1, _⟩ => rfl | ⟨2, _⟩ => rfl)
theorem idx13_eq (j : S16x2048.Idx) (t : Fin 2048) : idx_main_v13 j t = @ix3 16 2048 2048 (j 0) (j 1) t :=
  funext fun a => Fin.ext (by match a with | ⟨0, _⟩ => rfl | ⟨1, _⟩ => rfl | ⟨2, _⟩ => rfl)
/-- The two broadcasts of a row statistic read it at the row's own index. -/
theorem idx9_10_eq (j : S16x2048x2048.Idx) : idx_main_v9 (idx_main_v10 j) = @ix2 16 2048 (j 0) (j 1) :=
  funext fun a => Fin.ext (by match a with | ⟨0, _⟩ => rfl | ⟨1, _⟩ => rfl)
theorem idx14_15_eq (j : S16x2048x2048.Idx) : idx_main_v14 (idx_main_v15 j) = @ix2 16 2048 (j 0) (j 1) :=
  funext fun a => Fin.ext (by match a with | ⟨0, _⟩ => rfl | ⟨1, _⟩ => rfl)

/-! ## The stages -/

section Stages

variable (x0 x1 : (⟨S16x2048x1024, .f32⟩ : BufTy).Contents (Elt Ideal)) (x2 x3 : (⟨S1024x256, .f32⟩ : BufTy).Contents (Elt Ideal))
  (x4 : (⟨S1024x1024, .f32⟩ : BufTy).Contents (Elt Ideal))

/-- The first contraction is the projection of x into 256 features. -/
theorem v0_eq : val_main_v0 (F := Ideal) x0 x2 = proj256 x0 x2 := by
  funext j
  rw [val_main_v0_apply]
  show _ = ∑ d : Fin 1024, x0 (ix3 (j 0) (j 1) d) * x2 (ix2 d (j 2))
  exact Finset.sum_congr rfl fun d _ => by rw [lidx0_eq, ridx0_eq]

/-- The second is the projection of y into 256 features. -/
theorem v1_eq : val_main_v1 (F := Ideal) x1 x3 = proj256 x1 x3 := by
  funext j
  rw [val_main_v1_apply]
  show _ = ∑ d : Fin 1024, x1 (ix3 (j 0) (j 1) d) * x3 (ix2 d (j 2))
  exact Finset.sum_congr rfl fun d _ => by rw [lidx1_eq, ridx1_eq]

/-- The value rows: the projection of y into 1024 features. -/
theorem v17_eq : val_main_v17 (F := Ideal) x1 x4 = proj1024 x1 x4 := by
  funext j
  rw [val_main_v17_apply]
  show _ = ∑ d : Fin 1024, x1 (ix3 (j 0) (j 1) d) * x4 (ix2 d (j 2))
  exact Finset.sum_congr rfl fun d _ => by rw [lidx17_eq, ridx17_eq]

/-- The divided scores are `scoresR` of the two projections. -/
theorem v5_eq : val_main_v5 (F := Ideal) x0 x1 x2 x3 = scoresR (proj256 x0 x2) (proj256 x1 x3) := by
  funext j
  rw [val_main_v5_apply, val_main_v2_apply, val_main_v4_apply, val_main_v3_apply, val_main_cst_apply, v0_eq, v1_eq]
  simp only [Ideal.hostDivf_def, Ideal.hostUnary_sqrt_def, Ideal.ofBits_def]
  show Ideal.div _ root = Ideal.div (∑ k : Fin 256, proj256 x0 x2 (ix3 (j 0) (j 1) k) * proj256 x1 x3 (ix3 (j 0) (j 2) k)) root
  refine congrArg (Ideal.div · root) (Finset.sum_congr rfl fun k _ => ?_)
  rw [lidx2_eq, ridx2_eq]

/-- The max-reduce over the key axis, read at a row: the fold of `max` from −∞ over the row's scores. -/
theorem v6_apply (j : S16x2048.Idx) :
    val_main_v6 (F := Ideal) x0 x1 x2 x3 j = rowmax (val_main_v5 (F := Ideal) x0 x1 x2 x3) (j 0) (j 1) := by
  unfold val_main_v6
  generalize val_main_v5 (F := Ideal) x0 x1 x2 x3 = S
  have h : S16x2048x2048.Reduces [2] S16x2048 := by decide
  rw [Host.reduce_eq_fold_single (FloatOps.maximumf (F := Ideal) (φ := .f32)) S (val_main_cst_0 (F := Ideal))
      Gen.reducesTo_S16x2048x2048_S16x2048_d2 h Gen.h_S_ j,
    val_main_cst_0_apply, Ideal.ofBits_def, ofBits_neg_inf]
  have hl : (S ∘ h.lift j) = fun t : Fin 2048 => S (ix3 (j 0) (j 1) t) :=
    funext fun t => congrArg S (funext fun a => Fin.ext (by match a with | ⟨0, _⟩ => rfl | ⟨1, _⟩ => rfl | ⟨2, _⟩ => rfl))
  rw [hl]
  rfl

/-- The elementwise maximum with the −∞ constant leaves the row maximum. -/
theorem v8_apply (j : S16x2048.Idx) :
    val_main_v8 (F := Ideal) x0 x1 x2 x3 j = rowmax (val_main_v5 (F := Ideal) x0 x1 x2 x3) (j 0) (j 1) := by
  rw [val_main_v8_apply, val_main_v7_apply, val_main_cst_1_apply, v6_apply, Ideal.maximumf_def, Ideal.ofBits_def,
    ofBits_neg_inf]
  exact max_eq_right bot_le

/-- The exponential of a score less its row's maximum is the unnormalised weight. -/
theorem v12_apply (j : S16x2048x2048.Idx) :
    val_main_v12 (F := Ideal) x0 x1 x2 x3 j = wgt (val_main_v5 (F := Ideal) x0 x1 x2 x3) (j 0) (j 1) (j 2) := by
  rw [val_main_v12_apply, val_main_v11_apply, val_main_v10_apply, val_main_v9_apply, idx9_10_eq, v8_apply,
    Ideal.hostUnary_exp_def, Ideal.subf_def]
  generalize val_main_v5 (F := Ideal) x0 x1 x2 x3 = S
  exact congrArg (fun i => Ideal.exp (S i - rowmax S (j 0) (j 1))) (eq_ix3 j)

/-- The add-reduce over the key axis from zero is the sum of the row's weights. -/
theorem v13_apply (j : S16x2048.Idx) :
    val_main_v13 (F := Ideal) x0 x1 x2 x3 j = ∑ t : Fin 2048, wgt (val_main_v5 (F := Ideal) x0 x1 x2 x3) (j 0) (j 1) t := by
  rw [val_main_v13_apply, val_main_cst_2_apply, Ideal.ofBits_def, Ideal.ofBits_zero_f32, zero_add]
  refine Finset.sum_congr rfl fun t _ => ?_
  rw [v12_apply, idx13_eq]

/-- Every weight divided by its row's sum. -/
theorem v16_apply (j : S16x2048x2048.Idx) :
    val_main_v16 (F := Ideal) x0 x1 x2 x3 j
      = Ideal.div (wgt (val_main_v5 (F := Ideal) x0 x1 x2 x3) (j 0) (j 1) (j 2))
          (∑ t : Fin 2048, wgt (val_main_v5 (F := Ideal) x0 x1 x2 x3) (j 0) (j 1) t) := by
  rw [val_main_v16_apply, val_main_v15_apply, val_main_v14_apply, idx14_15_eq, v13_apply, v12_apply, Ideal.hostDivf_def]

end Stages

/-- The reference's last stage, as a function of its five arguments, is the divide-first spelling of attention. -/
theorem ref_eq (x0 x1 : (⟨S16x2048x1024, .f32⟩ : BufTy).Contents (Elt Ideal)) (x2 x3 : (⟨S1024x256, .f32⟩ : BufTy).Contents (Elt Ideal))
    (x4 : (⟨S1024x1024, .f32⟩ : BufTy).Contents (Elt Ideal)) :
    val_main_v19 (F := Ideal) x0 x1 x2 x3 x4 = attnR (scoresR (proj256 x0 x2) (proj256 x1 x3)) (proj1024 x1 x4) x0 := by
  funext i
  rw [val_main_v19_apply, val_main_v18_apply, Ideal.addf_def, v17_eq, ← v5_eq]
  unfold attnR
  refine congrArg (· + x0 i) (Finset.sum_congr rfl fun t _ => ?_)
  rw [v16_apply, lidx18_eq, ridx18_eq]

end Cert.ReferenceIdeal.RefValue

end
-- ==== Proof.Algebra.lean ====
/-
  On finite inputs the two spellings of attention are one function.
-/
import proofs.«421500_j33990371180653_3_alg».proof.Proof.Spec

noncomputable section

namespace Cert.Attn

open Idealize.ShloMosaic Idealize.ShloMosaic.ValueIdx
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_coe_mul {ι : Type*} [Fintype ι] (f g : ι → ℝ) :
    ∑ i, (f i : EReal) * (g i : EReal) = ((∑ i, f i * g i : ℝ) : EReal) := by
  rw [coe_sum]
  exact Finset.sum_congr rfl fun i _ => (EReal.coe_mul _ _).symm

/-- The projection into 256 features of real arrays is a real array. -/
theorem proj256_coe (y' : SX.Idx → ℝ) (w' : SW.Idx → ℝ) :
    proj256 (fun i => (y' i : EReal)) (fun i => (w' i : EReal))
      = fun i => ((∑ d : Fin 1024, y' (ix3 (i 0) (i 1) d) * w' (ix2 d (i 2)) : ℝ) : EReal) := by
  funext i
  simp only [proj256]
  exact sum_coe_mul (fun d => y' (ix3 (i 0) (i 1) d)) (fun d => w' (ix2 d (i 2)))

/-- The projection into 1024 features of real arrays is a real array. -/
theorem proj1024_coe (y' : SX.Idx → ℝ) (w' : SWV.Idx → ℝ) :
    proj1024 (fun i => (y' i : EReal)) (fun i => (w' i : EReal))
      = fun i => ((∑ d : Fin 1024, y' (ix3 (i 0) (i 1) d) * w' (ix2 d (i 2)) : ℝ) : EReal) := by
  funext i
  simp only [proj1024]
  exact sum_coe_mul (fun d => y' (ix3 (i 0) (i 1) d)) (fun d => w' (ix2 d (i 2)))

/-- On real queries and keys the scores with the factor 1/32 on the query side are the real array
    (Σ_k q_k·k_k)·(1/32). -/
theorem scoresK_coe (q' k' : SQ.Idx → ℝ) :
    scoresK (fun i => (q' i : EReal)) (fun i => (k' i : EReal))
      = fun i => (((∑ k : Fin 256, q' (ix3 (i 0) (i 1) k) * k' (ix3 (i 0) (i 2) k)) * (1 / 32) : ℝ) : EReal) := by
  funext i
  simp only [scoresK, scale_eq]
  have h : ∀ k : Fin 256, ((q' (ix3 (i 0) (i 1) k) : ℝ) : EReal) * ((1 / 32 : ℝ) : EReal)
        * ((k' (ix3 (i 0) (i 2) k) : ℝ) : EReal)
      = ((q' (ix3 (i 0) (i 1) k) * k' (ix3 (i 0) (i 2) k) * (1 / 32) : ℝ) : EReal) := fun k => by
    rw [← EReal.coe_mul, ← EReal.coe_mul]; congr 1; ring
  rw [Finset.sum_congr rfl fun k _ => h k, ← coe_sum, Finset.sum_mul]

/-- On real queries and keys the scores divided by √1024 afterwards are the same real array. -/
theorem scoresR_coe (q' k' : SQ.Idx → ℝ) :
    scoresR (fun i => (q' i : EReal)) (fun i => (k' i : EReal))
      = fun i => (((∑ k : Fin 256, q' (ix3 (i 0) (i 1) k) * k' (ix3 (i 0) (i 2) k)) * (1 / 32) : ℝ) : EReal) := by
  funext i
  simp only [scoresR, root_eq]
  rw [sum_coe_mul (fun k => q' (ix3 (i 0) (i 1) k)) (fun k => k' (ix3 (i 0) (i 2) k)),
    Ideal.div_coe (by norm_num : (32 : ℝ) ≠ 0), ← EReal.coe_mul]

/-- The running maximum from −∞ of a nonempty finite family of reals is a real. -/
theorem fold_max_coe {ι : Type*} [Fintype ι] [Nonempty ι] (s' : ι → ℝ) :
    ∃ m : ℝ, (Finset.univ : Finset ι).fold max ⊥ (fun t => (s' t : EReal)) = (m : EReal) := by
  have htop : (Finset.univ : Finset ι).fold max ⊥ (fun t => (s' t : EReal)) ≠ ⊤ := by
    apply ne_of_lt
    rw [Finset.fold_max_lt]
    exact ⟨bot_lt_top, fun t _ => EReal.coe_lt_top _⟩
  have hbot : (Finset.univ : Finset ι).fold max ⊥ (fun t => (s' t : EReal)) ≠ ⊥ := by
    obtain ⟨t0⟩ := ‹Nonempty ι›
    have h0 : (s' t0 : EReal) ≤ (Finset.univ : Finset ι).fold max ⊥ (fun t => (s' t : EReal)) := by
      rw [Finset.le_fold_max]
      exact Or.inr ⟨t0, Finset.mem_univ _, le_rfl⟩
    intro h
    rw [h] at h0
    exact absurd h0 (not_le.mpr (EReal.bot_lt_coe _))
  exact ⟨_, (EReal.coe_toReal htop hbot).symm⟩

/-- One softmax row against one column of values: with real scores, a real maximum and real values, dividing the
    weighted sum by the denominator is the same as dividing every weight by it first. -/
theorem row_eq {ι : Type*} [Fintype ι] [Nonempty ι] (s' v' : ι → ℝ) (M : EReal) (hM : ∃ m : ℝ, M = (m : EReal)) :
    Ideal.div (∑ t, Ideal.exp ((s' t : EReal) - M) * (v' t : EReal)) (∑ t, Ideal.exp ((s' t : EReal) - M))
      = ∑ t, Ideal.div (Ideal.exp ((s' t : EReal) - M)) (∑ t', Ideal.exp ((s' t' : EReal) - M)) * (v' t : EReal) := by
  obtain ⟨m, rfl⟩ := hM
  have he : ∀ t, Ideal.exp ((s' t : EReal) - (m : EReal)) = ((Real.exp (s' t - m) : ℝ) : EReal) := fun t => by
    rw [← EReal.coe_sub]; rfl
  simp only [he]
  have hpos : 0 < ∑ t, Real.exp (s' t - m) :=
    Finset.sum_pos (fun t _ => Real.exp_pos _) Finset.univ_nonempty
  have hne : (∑ t, Real.exp (s' t - m)) ≠ 0 := ne_of_gt hpos
  rw [← coe_sum, sum_coe_mul (fun t => Real.exp (s' t - m)) v', Ideal.div_coe hne, ← EReal.coe_mul]
  have h : ∀ t, Ideal.div ((Real.exp (s' t - m) : ℝ) : EReal) ((∑ t', Real.exp (s' t' - m) : ℝ) : EReal) * (v' t : EReal)
      = ((Real.exp (s' t - m) * v' t * (1 / ∑ t', Real.exp (s' t' - m)) : ℝ) : EReal) := fun t => by
    rw [Ideal.div_coe hne, ← EReal.coe_mul, ← EReal.coe_mul]; congr 1; ring
  rw [Finset.sum_congr rfl fun t _ => h t, ← coe_sum, Finset.sum_mul]

/-- The row statement on the arrays of the specification: real scores `s'`, real values `v'`, row (b, s), column e. -/
theorem attn_row (s' : SS.Idx → ℝ) (v' : SX.Idx → ℝ) (b : Fin 16) (s : Fin 2048) (e : Fin 1024) :
    Ideal.div (∑ t : Fin 2048, wgt (fun j => (s' j : EReal)) b s t * (v' (ix3 b t e) : EReal))
        (∑ t : Fin 2048, wgt (fun j => (s' j : EReal)) b s t)
      = ∑ t : Fin 2048, Ideal.div (wgt (fun j => (s' j : EReal)) b s t)
          (∑ t' : Fin 2048, wgt (fun j => (s' j : EReal)) b s t') * (v' (ix3 b t e) : EReal) := by
  simp only [wgt, rowmax]
  exact row_eq (fun t => s' (ix3 b s t)) (fun t => v' (ix3 b t e)) _ (fold_max_coe fun t => s' (ix3 b s t))

/-- On one real score array, real values and a real residual the two spellings of the weighted average agree. -/
theorem attn_coe_eq (s' : SS.Idx → ℝ) (v' x' : SX.Idx → ℝ) :
    attnK (fun j => (s' j : EReal)) (fun j => (v' j : EReal)) (fun j => (x' j : EReal))
      = attnR (fun j => (s' j : EReal)) (fun j => (v' j : EReal)) (fun j => (x' j : EReal)) := by
  funext i
  exact congrArg (· + ((x' i : ℝ) : EReal)) (attn_row s' v' (i 0) (i 1) (i 2))

/-- With every input entry a real number, scaling the queries by 2⁻⁵ before the contraction or dividing the scores by
    √1024 after it, and dividing the weighted sum or the weights by the softmax denominator, give the same array. -/
theorem attn_eq (x y : SX.Idx → EReal) (wq wk : SW.Idx → EReal) (wv : SWV.Idx → EReal)
    (hx : ∀ i, ∃ r : ℝ, x i = (r : EReal)) (hy : ∀ i, ∃ r : ℝ, y i = (r : EReal))
    (hwq : ∀ i, ∃ r : ℝ, wq i = (r : EReal)) (hwk : ∀ i, ∃ r : ℝ, wk i = (r : EReal))
    (hwv : ∀ i, ∃ r : ℝ, wv i = (r : EReal)) :
    attnK (scoresK (proj256 x wq) (proj256 y wk)) (proj1024 y wv) x
      = attnR (scoresR (proj256 x wq) (proj256 y wk)) (proj1024 y wv) x := by
  choose x' hx' using hx
  choose y' hy' using hy
  choose wq' hwq' using hwq
  choose wk' hwk' using hwk
  choose wv' hwv' using hwv
  obtain rfl : x = fun i => ((x' i : ℝ) : EReal) := funext hx'
  obtain rfl : y = fun i => ((y' i : ℝ) : EReal) := funext hy'
  obtain rfl : wq = fun i => ((wq' i : ℝ) : EReal) := funext hwq'
  obtain rfl : wk = fun i => ((wk' i : ℝ) : EReal) := funext hwk'
  obtain rfl : wv = fun i => ((wv' i : ℝ) : EReal) := funext hwv'
  rw [proj256_coe, proj256_coe, proj1024_coe, scoresK_coe, scoresR_coe]
  exact attn_coe_eq _ _ x'

end Cert.Attn

end
-- ==== Proof.Finite.lean ====
/-
  The precondition, read: every entry of every argument is a real number.
-/
import proofs.«421500_j33990371180653_3_alg».proof.Pre_finite_inputs
import proofs.«421500_j33990371180653_3_alg».proof.Proof.Gen.Pre_finite_inputs
import Idealize.ShloMosaic.PureOps.Ideal
import Idealize.ShloMosaic.Lib.ReduceAll

noncomputable section

namespace Cert.Pre_finite_inputs.Finite

open Idealize.ShloMosaic Cert.Pre_finite_inputs

/-- The scalar fact. The pattern 0x7F800000 denotes +∞, and |x| = max x (-x) is +∞ at both infinities,
    so a strict comparison |x| < +∞ that holds leaves only the real case. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have ht : Ideal.ofBits .f32 0x7F800000#32 = ⊤ := by simp [Ideal.ofBits, Ideal.ieee]
  change Ideal.cmp .olt (max x (-x)) (Ideal.ofBits .f32 0x7F800000#32) = 1#1 at h
  rw [ht] at h
  induction x using EReal.rec with
  | bot => simp [Ideal.cmp] at h
  | coe r => exact ⟨r, rfl⟩
  | top => simp [Ideal.cmp] at h

/-- One conjunct of the predicate, over any shape: the conjunction, over every index, of |a i| < +∞
    (a reduction by `and` over all axes into the shape of one index, started at 1). If it is 1, every
    comparison is 1, and so every entry of `a` is real. -/
theorem real_of_all {s : Shape} {axes : List (Fin s.rank)}
    (hb : S_.BroadcastsInDim s (![] : Fin 0 → Fin s.rank)) (hr : s.ReducesTo axes S_) (hu : 0 < S_.numel)
    (a : FVec Ideal s .f32) (j : S_.Idx)
    (e : Host.reduce IntOp.andi (cmpf .olt (Host.absf a) (broadcastInDim s ![] hb (constant S_ .f32 0x7F800000#32)))
      (constantI S_ 1 1#1) hr hu j = 1#1) (i : s.Idx) : ∃ r : ℝ, a i = (r : EReal) :=
  haveI : Subsingleton S_.Idx := ⟨fun _ _ => funext fun d => d.elim0⟩
  real_of_abs_lt_top (a i) (Host.reduce_andi_all _ _ hr hu j e i)

/-- If the printed predicate is the one-bit word 1 at the ideal values, each of the five arrays holds reals only. -/
theorem real_of_pre (a0 a1 : FVec Ideal S16x2048x1024 .f32) (a2 a3 : FVec Ideal S1024x256 .f32) (a4 : FVec Ideal S1024x1024 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the predicate at its one index is the nested conjunction (((c0 ∧ c1) ∧ c2) ∧ c3) ∧ c4 of the five arrays' words
  have h0 := congrFun h (fun d => d.elim0)
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ a0 _ h0', real_of_all _ _ _ a1 _ h1, real_of_all _ _ _ a2 _ h2,
    real_of_all _ _ _ a3 _ h3, real_of_all _ _ _ a4 _ h4⟩

end Cert.Pre_finite_inputs.Finite

end
-- ==== Proof.Bridge.lean ====
/-
  The two idealized programs, run from memories that agree on the five arguments, end with one result.
  The kernel's result is attnK (scoresK (proj256 x Wq) (proj256 y Wk)) (proj1024 y Wv) x (scale on the queries, one
  division of the weighted sum); the reference's is attnR (scoresR …) … (scores divided by √1024, every weight divided by
  the softmax denominator).  On finite inputs, which the precondition gives, the two are one array: every score is a real
  number, 2⁻⁵ = 1/√1024, and a real division distributes over a finite sum.
-/
import proofs.«421500_j33990371180653_3_alg».proof.Defs
import proofs.«421500_j33990371180653_3_alg».proof.Proof.KernelRun
import proofs.«421500_j33990371180653_3_alg».proof.Proof.KernelValue
import proofs.«421500_j33990371180653_3_alg».proof.Proof.RefValue
import proofs.«421500_j33990371180653_3_alg».proof.Proof.Algebra
import proofs.«421500_j33990371180653_3_alg».proof.Proof.Finite

noncomputable section

namespace Cert.Proof.Bridge

open Idealize.ShloMosaic Idealize.ShloMosaic.TcCoe Idealize.SL.Sem Cert.Attn

/-- Both runs end at the kernel's spelling of the attention of the kernel's arguments. -/
theorem algebraic : Cert.algebraic_KernelIdeal_ReferenceIdeal := by
  intro m ρ m' ρ' hpre hagree
  refine ⟨fun c => attnK (scoresK
      (proj256 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (proj256 (m ((c.tc : Thread Cert.KernelIdeal.nD Cert.KernelIdeal.τ).loc Cert.KernelIdeal.main_arg1)) (m ((c.tc : Thread Cert.KernelIdeal.nD Cert.KernelIdeal.τ).loc Cert.KernelIdeal.main_arg3))))
      (proj1024 (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.KernelValue.result_eq m ρ c), (h c).2⟩)
      (Cert.KernelIdeal.KernelRun.run (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    refine (Cert.ReferenceIdeal.Read.val_main_v19_eq _ _ _ _ _).trans ((Cert.ReferenceIdeal.RefValue.ref_eq _ _ _ _ _).trans ?_)
    obtain ⟨h0, h1, h2, h3, h4⟩ := Cert.Pre_finite_inputs.Finite.real_of_pre _ _ _ _ _ (hpre c)
    exact (Cert.Attn.attn_eq _ _ _ _ _ h0 h1 h2 h3 h4).symm

end Cert.Proof.Bridge

end
-- ==== Proof.lean ====
/-
  Cross-attention with a residual: out = softmax((x·Wq)(y·Wk)ᵀ / √1024)·(y·Wv) + x over x, y : [16, 2048, 1024].
  The kernel projects k = y·Wk and v = y·Wv in one region and, in a second, forms for every block of 512 query rows the
  scores ((x·Wq)·2⁻⁵)·kᵀ, the unnormalised weights exp(s − max s), their product with v divided once by their sum, and adds
  x.  The reference divides the scores by √1024 and every weight by the sum.  Over the extended reals the two agree on
  finite inputs: the changes of float format are the identity, 2⁻⁵ = 1/√1024 exactly, all intermediate values are real and
  a real division distributes over a finite sum (Proof/Algebra.lean).  The kernel's value is read off its run region by
  region (Proof/Reg0.lean, Proof/Reg1.lean, Proof/KernelValue.lean), the reference's off its run stage by stage
  (Proof/RefValue.lean); Proof/Bridge.lean joins them.  The idealization rewrote nothing, so the kernel's frame at the
  word level and at the ideal values are the two generated frames, and the reference's frame is its run with the result
  dropped.
-/
import proofs.«421500_j33990371180653_3_alg».proof.Defs
import proofs.«421500_j33990371180653_3_alg».proof.Proof.Gen.Kernel
import proofs.«421500_j33990371180653_3_alg».proof.Proof.Gen.Kernel.Frame
import proofs.«421500_j33990371180653_3_alg».proof.Proof.Gen.KernelIdeal
import proofs.«421500_j33990371180653_3_alg».proof.Proof.Gen.KernelIdeal.Frame
import proofs.«421500_j33990371180653_3_alg».proof.Proof.Gen.ReferenceIdeal
import proofs.«421500_j33990371180653_3_alg».proof.Proof.Gen.ReferenceIdeal.Run
import proofs.«421500_j33990371180653_3_alg».proof.Proof.Gen.Pre_finite_inputs
import proofs.«421500_j33990371180653_3_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Bridge.algebraic⟩

end Cert.Proof

end
